-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S64x2 : Shape := ⟨2, ![64, 2]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S64x2 : S_.BroadcastsInDim S64x2 (![] : Fin 0 → Fin S64x2.rank)
  reducesTo_S64x2_S_d0_1 : S64x2.ReducesTo [0, 1] S_

variable [Facts]

def fn {F : FTy → Type} [FloatOps F] (main_arg0 : FVec F S64x2048x512 .f32) (main_arg1 : FVec F S64x2 .f32) (main_arg2 : FVec F S64x2 .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S64x2 .f32 := Host.absf main_arg1
  let main_cst_0 : FVec F S_ .f32 := constant S_ .f32 0x7F800000#32
  let main_v5 : FVec F S64x2 .f32 := broadcastInDim S64x2 ![] bcast_S_S64x2 main_cst_0
  let main_v6 : IVec S64x2 1 := cmpf .olt main_v4 main_v5
  let main_c_1 : IVec S_ 1 := constantI S_ 1 1#1
  let main_v7 : IVec S_ 1 := (fun x v => Host.reduce IntOp.andi x v reducesTo_S64x2_S_d0_1 h_S_) main_v6 main_c_1
  let main_v8 : IVec S_ 1 := andi main_v3 main_v7
  let main_v9 : FVec F S64x2 .f32 := Host.absf main_arg2
  let main_cst_2 : FVec F S_ .f32 := constant S_ .f32 0x7F800000#32
  let main_v10 : FVec F S64x2 .f32 := broadcastInDim S64x2 ![] bcast_S_S64x2 main_cst_2
  let main_v11 : IVec S64x2 1 := cmpf .olt main_v9 main_v10
  let main_c_3 : IVec S_ 1 := constantI S_ 1 1#1
  let main_v12 : IVec S_ 1 := (fun x v => Host.reduce IntOp.andi x v reducesTo_S64x2_S_d0_1 h_S_) main_v11 main_c_3
  let main_v13 : IVec S_ 1 := andi main_v8 main_v12
  main_v13
-- ==== Kernel.lean ====
abbrev S64x2048x512 : Shape := ⟨3, ![64, 2048, 512]⟩
abbrev S64x2 : Shape := ⟨2, ![64, 2]⟩
abbrev S_ : Shape := ⟨0, ![]⟩
abbrev S512 : Shape := ⟨1, ![512]⟩
abbrev S1x1x512 : Shape := ⟨3, ![1, 1, 512]⟩
abbrev S64x2x1 : Shape := ⟨3, ![64, 2, 1]⟩
abbrev S64x2x512 : Shape := ⟨3, ![64, 2, 512]⟩
abbrev S64x512 : Shape := ⟨2, ![64, 512]⟩
abbrev S64x1x512 : Shape := ⟨3, ![64, 1, 512]⟩
abbrev S1x2048x512 : Shape := ⟨3, ![1, 2048, 512]⟩

abbrev nBuf : Space → Nat
  | .hbm => 34
  | .vmem => 6
  | .smem => 0
  | _ => 0

abbrev bufTy : (tb : Table) → Fin (tcTables nBuf tb) → BufTy
  | .hbm, ⟨0, _⟩ => ⟨S64x2048x512, .f32⟩
  | .hbm, ⟨1, _⟩ => ⟨S64x2, .f32⟩
  | .hbm, ⟨2, _⟩ => ⟨S64x2, .f32⟩
  | .hbm, ⟨3, _⟩ => ⟨S_, .f32⟩
  | .hbm, ⟨4, _⟩ => ⟨S64x2, .f32⟩
  | .hbm, ⟨5, _⟩ => ⟨S64x2, .f32⟩
  | .hbm, ⟨6, _⟩ => ⟨S64x2, .f32⟩
  | .hbm, ⟨7, _⟩ => ⟨S64x2, .i32⟩
  | .hbm, ⟨8, _⟩ => ⟨S_, .i32⟩
  | .hbm, ⟨9, _⟩ => ⟨S64x2, .i32⟩
  | .hbm, ⟨10, _⟩ => ⟨S64x2, .i32⟩
  | .hbm, ⟨11, _⟩ => ⟨S64x2, .f32⟩
  | .hbm, ⟨12, _⟩ => ⟨S64x2, .f32⟩
  | .hbm, ⟨13, _⟩ => ⟨S64x2, .f32⟩
  | .hbm, ⟨14, _⟩ => ⟨S64x2, .i32⟩
  | .hbm, ⟨15, _⟩ => ⟨S512, .i32⟩
  | .hbm, ⟨16, _⟩ => ⟨S1x1x512, .i32⟩
  | .hbm, ⟨17, _⟩ => ⟨S64x2x1, .i32⟩
  | .hbm, ⟨18, _⟩ => ⟨S64x2x512, .i32⟩
  | .hbm, ⟨19, _⟩ => ⟨S64x2x512, .i32⟩
  | .hbm, ⟨20, _⟩ => ⟨S64x2x512, .i1⟩
  | .hbm, ⟨21, _⟩ => ⟨S1x1x512, .i32⟩
  | .hbm, ⟨22, _⟩ => ⟨S64x2, .i32⟩
  | .hbm, ⟨23, _⟩ => ⟨S64x2x1, .i32⟩
  | .hbm, ⟨24, _⟩ => ⟨S64x2x512, .i32⟩
  | .hbm, ⟨25, _⟩ => ⟨S64x2x512, .i32⟩
  | .hbm, ⟨26, _⟩ => ⟨S64x2x512, .i1⟩
  | .hbm, ⟨27, _⟩ => ⟨S64x2x512, .i1⟩
  | .hbm, ⟨28, _⟩ => ⟨S_, .i1⟩
  | .hbm, ⟨29, _⟩ => ⟨S64x512, .i1⟩
  | .hbm, ⟨30, _⟩ => ⟨S64x512, .i1⟩
  | .hbm, ⟨31, _⟩ => ⟨S64x512, .f32⟩
  | .hbm, ⟨32, _⟩ => ⟨S64x1x512, .f32⟩
  | .hbm, ⟨33, _⟩ => ⟨S64x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S1x1x512, .f32⟩
  | .local _ .vmem, ⟨3, _⟩ => ⟨S1x1x512, .f32⟩
  | .local _ .vmem, ⟨4, _⟩ => ⟨S1x2048x512, .f32⟩
  | .local _ .vmem, ⟨5, _⟩ => ⟨S1x2048x512, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S64x2 : S_.BroadcastsInDim S64x2 (![] : Fin 0 → Fin S64x2.rank)
  bcast_S512_S1x1x512_2 : S512.BroadcastsInDim S1x1x512 (![2] : Fin 1 → Fin S1x1x512.rank)
  bcast_S64x2_S64x2x1_0_1 : S64x2.BroadcastsInDim S64x2x1 (![0, 1] : Fin 2 → Fin S64x2x1.rank)
  bcast_S1x1x512_S64x2x512_0_1_2 : S1x1x512.BroadcastsInDim S64x2x512 (![0, 1, 2] : Fin 3 → Fin S64x2x512.rank)
  bcast_S64x2x1_S64x2x512_0_1_2 : S64x2x1.BroadcastsInDim S64x2x512 (![0, 1, 2] : Fin 3 → Fin S64x2x512.rank)
  reducesTo_S64x2x512_S64x512_d1 : S64x2x512.ReducesTo [1] S64x512
  h_S_ : 0 < S_.numel
  bcast_S64x512_S64x1x512_0_2 : S64x512.BroadcastsInDim S64x1x512 (![0, 2] : Fin 2 → Fin S64x1x512.rank)
  inb_S1x2048x512_S1x2048x512_0_0_0 : ∀ a, (![0, 0, 0] : Fin 3 → Nat) a + S1x2048x512.size a ≤ S1x2048x512.size a
  h_S1x2048x512 : 0 < S1x2048x512.numel
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  broadcasts_S1x1x512_S1x2048x512 : S1x1x512.Broadcasts S1x2048x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S64x2048x512.size a
  hwx0_0 : ∀ i : grid0.Coords, EltTy.bits .f32 = 32 ∨ (Rect.block (s := S64x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S64x1x512.size a
  hwx0_1 : ∀ i : grid0.Coords, EltTy.bits .f32 = 32 ∨ (Rect.block (s := S64x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S64x2048x512.size a
  hwx0_2 : ∀ i : grid0.Coords, EltTy.bits .f32 = 32 ∨ (Rect.block (s := S64x2048x512) S1x2048x512.size (cc0_transform_2 i) (hinb0_2 i)).WholeWords (EltTy.packing .f32)

variable [Facts₀]

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2048x512 : Shape := ⟨3, ![64, 2048, 512]⟩
abbrev S64x2 : Shape := ⟨2, ![64, 2]⟩
abbrev S_ : Shape := ⟨0, ![]⟩
abbrev S512 : Shape := ⟨1, ![512]⟩
abbrev S1x1x512 : Shape := ⟨3, ![1, 1, 512]⟩
abbrev S64x2x1 : Shape := ⟨3, ![64, 2, 1]⟩
abbrev S64x2x512 : Shape := ⟨3, ![64, 2, 512]⟩
abbrev S64x512 : Shape := ⟨2, ![64, 512]⟩
abbrev S64x1x512 : Shape := ⟨3, ![64, 1, 512]⟩

abbrev nBuf : Space → Nat
  | .hbm => 35
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S64x2, .f32⟩
  | .hbm, ⟨2, _⟩ => ⟨S64x2, .f32⟩
  | .hbm, ⟨3, _⟩ => ⟨S_, .f32⟩
  | .hbm, ⟨4, _⟩ => ⟨S64x2, .f32⟩
  | .hbm, ⟨5, _⟩ => ⟨S64x2, .f32⟩
  | .hbm, ⟨6, _⟩ => ⟨S64x2, .f32⟩
  | .hbm, ⟨7, _⟩ => ⟨S64x2, .i32⟩
  | .hbm, ⟨8, _⟩ => ⟨S_, .i32⟩
  | .hbm, ⟨9, _⟩ => ⟨S64x2, .i32⟩
  | .hbm, ⟨10, _⟩ => ⟨S64x2, .i32⟩
  | .hbm, ⟨11, _⟩ => ⟨S64x2, .f32⟩
  | .hbm, ⟨12, _⟩ => ⟨S64x2, .f32⟩
  | .hbm, ⟨13, _⟩ => ⟨S64x2, .f32⟩
  | .hbm, ⟨14, _⟩ => ⟨S64x2, .i32⟩
  | .hbm, ⟨15, _⟩ => ⟨S512, .i32⟩
  | .hbm, ⟨16, _⟩ => ⟨S1x1x512, .i32⟩
  | .hbm, ⟨17, _⟩ => ⟨S64x2x1, .i32⟩
  | .hbm, ⟨18, _⟩ => ⟨S64x2x512, .i32⟩
  | .hbm, ⟨19, _⟩ => ⟨S64x2x512, .i32⟩
  | .hbm, ⟨20, _⟩ => ⟨S64x2x512, .i1⟩
  | .hbm, ⟨21, _⟩ => ⟨S1x1x512, .i32⟩
  | .hbm, ⟨22, _⟩ => ⟨S64x2, .i32⟩
  | .hbm, ⟨23, _⟩ => ⟨S64x2x1, .i32⟩
  | .hbm, ⟨24, _⟩ => ⟨S64x2x512, .i32⟩
  | .hbm, ⟨25, _⟩ => ⟨S64x2x512, .i32⟩
  | .hbm, ⟨26, _⟩ => ⟨S64x2x512, .i1⟩
  | .hbm, ⟨27, _⟩ => ⟨S64x2x512, .i1⟩
  | .hbm, ⟨28, _⟩ => ⟨S_, .i1⟩
  | .hbm, ⟨29, _⟩ => ⟨S64x512, .i1⟩
  | .hbm, ⟨30, _⟩ => ⟨S64x512, .i1⟩
  | .hbm, ⟨31, _⟩ => ⟨S64x1x512, .i1⟩
  | .hbm, ⟨32, _⟩ => ⟨S64x1x512, .f32⟩
  | .hbm, ⟨33, _⟩ => ⟨S64x2048x512, .f32⟩
  | .hbm, ⟨34, _⟩ => ⟨S64x2048x512, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]

class Facts₀ : Prop where
  bcast_S_S64x2 : S_.BroadcastsInDim S64x2 (![] : Fin 0 → Fin S64x2.rank)
  bcast_S512_S1x1x512_2 : S512.BroadcastsInDim S1x1x512 (![2] : Fin 1 → Fin S1x1x512.rank)
  bcast_S64x2_S64x2x1_0_1 : S64x2.BroadcastsInDim S64x2x1 (![0, 1] : Fin 2 → Fin S64x2x1.rank)
  bcast_S1x1x512_S64x2x512_0_1_2 : S1x1x512.BroadcastsInDim S64x2x512 (![0, 1, 2] : Fin 3 → Fin S64x2x512.rank)
  bcast_S64x2x1_S64x2x512_0_1_2 : S64x2x1.BroadcastsInDim S64x2x512 (![0, 1, 2] : Fin 3 → Fin S64x2x512.rank)
  reducesTo_S64x2x512_S64x512_d1 : S64x2x512.ReducesTo [1] S64x512
  h_S_ : 0 < S_.numel
  bcast_S64x512_S64x1x512_0_2 : S64x512.BroadcastsInDim S64x1x512 (![0, 2] : Fin 2 → Fin S64x1x512.rank)
  bcast_S64x1x512_S64x2048x512_0_1_2 : S64x1x512.BroadcastsInDim S64x2048x512 (![0, 1, 2] : Fin 3 → Fin S64x2048x512.rank)

variable [Facts₀]

class Facts : Prop extends Facts₀ where

variable [Facts]
-- ==== Proof.MaskedProduct.lean ====
/-
  The masked product.

  Both programs multiply every entry `x[b, t, w]` of the input by the keep bit of sample `b` at frequency bin `w`,
  read as a number (0 or 1): the result at `(b, t, w)` is `x[b, t, w] · k[b, w]`.  They differ only in where the bit
  becomes a number and in how the [64, 512] mask is laid along the time axis:

    * the reference gives the bit mask a unit time axis, converts it, broadcasts it along time to the full
      [64, 2048, 512] shape and multiplies whole arrays;
    * the kernel converts first and then gives the mask its unit time axis; grid point `b` multiplies its
      [1, 2048, 512] block of `x` by row `b` of the mask, a [1, 1, 512] block broadcast along time.

  Converting a bit is pointwise, so it commutes with both broadcasts: each arrangement is `maskedProduct`.  No law of
  the extended reals is used; the two sides are the same product at every index, so nothing here asks the inputs to be
  finite.
-/
import Idealize.ShloMosaic.PureOps.Ideal
import Idealize.ShloMosaic.Lib.ValueIdx
import Idealize.ShloMosaic.Lib.Pipeline.Value

noncomputable section

namespace Cert.MaskedProduct

open Idealize.ShloMosaic Idealize.ShloMosaic.ValueIdx

/-- The input and the result: sample, time step, frequency bin. -/
abbrev SArr : Shape := ⟨3, ![64, 2048, 512]⟩
/-- The keep mask: sample, frequency bin. -/
abbrev SMask : Shape := ⟨2, ![64, 512]⟩
/-- The keep mask with a unit time axis. -/
abbrev SMaskT : Shape := ⟨3, ![64, 1, 512]⟩

/-- `x[b, t, w] · k[b, w]`, the keep bit read as the number 0 or 1. -/
def maskedProduct (x : FVec Ideal SArr .f32) (k : IVec SMask 1) : FVec Ideal SArr .f32 :=
  fun i => x i * (uitofp (F := Ideal) .f32 k : FVec Ideal SMask .f32) (ix2 (n0 := 64) (n1 := 512) (i 0) (i 2))

/-- The kernel's arrangement over whole arrays: `x[b, t, w]` times the entry `(b, 0, w)` of a mask that already
    carries its unit time axis. -/
def rowProduct (x : FVec Ideal SArr .f32) (kf : FVec Ideal SMaskT .f32) : FVec Ideal SArr .f32 :=
  fun i => x i * kf (ix3 (n0 := 64) (n1 := 1) (n2 := 512) (i 0) 0 (i 2))

/-- A mask given its unit time axis reads, at `(b, 0, w)`, the mask at `(b, w)`. -/
theorem unitTime_apply {α : Type} (h : SMask.BroadcastsInDim SMaskT (![0, 2] : Fin 2 → Fin SMaskT.rank)) (k : SMask.Idx → α)
    (b : Fin 64) (w : Fin 512) :
    broadcastInDim SMaskT ![0, 2] h k (ix3 b (0 : Fin 1) w) = k (ix2 b w) :=
  broadcastInDim_apply ![0, 2] h k (ix3 b (0 : Fin 1) w) (ix2 b w) fun a => by
    match a with
    | ⟨0, _⟩ => rfl
    | ⟨1, _⟩ => rfl

/-- The kernel's arrangement is the masked product: converting the bits and then adding the unit time axis reads, at
    `(b, 0, w)`, bit `(b, w)` converted. -/
theorem rowProduct_eq (h : SMask.BroadcastsInDim SMaskT (![0, 2] : Fin 2 → Fin SMaskT.rank)) (x : FVec Ideal SArr .f32) (k : IVec SMask 1) :
    rowProduct x (broadcastInDim SMaskT ![0, 2] h (uitofp (F := Ideal) .f32 k)) = maskedProduct x k := by
  funext i
  show x i * broadcastInDim SMaskT ![0, 2] h (uitofp (F := Ideal) .f32 k) (ix3 (i 0) (0 : Fin 1) (i 2)) = x i * _
  rw [unitTime_apply h _ (i 0) (i 2)]

/-- The reference's arrangement is the masked product: the unit time axis on the bits, the conversion, the broadcast
    along time, each read at an index, leave bit `(b, w)` converted beside `x[b, t, w]`. -/
theorem wholeProduct_eq (h : SMask.BroadcastsInDim SMaskT (![0, 2] : Fin 2 → Fin SMaskT.rank))
    (h' : SMaskT.BroadcastsInDim SArr (![0, 1, 2] : Fin 3 → Fin SArr.rank)) (x : FVec Ideal SArr .f32) (k : IVec SMask 1) :
    mulf x (broadcastInDim SArr ![0, 1, 2] h' (uitofp (F := Ideal) .f32 (broadcastInDim SMaskT ![0, 2] h k))) = maskedProduct x k := by
  funext i
  obtain ⟨b, t, w, rfl⟩ : ∃ (b : Fin 64) (t : Fin 2048) (w : Fin 512), i = ix3 b t w := ⟨i 0, i 1, i 2, eq_ix3 i⟩
  rw [mulf_apply]
  rw [broadcastInDim_apply ![0, 1, 2] h' _ (ix3 b t w) (ix3 b (0 : Fin 1) w) fun a => by
    match a with
    | ⟨0, _⟩ => rfl
    | ⟨1, _⟩ => rfl
    | ⟨2, _⟩ => rfl]
  show _ * FloatOps.uitofp .f32 (broadcastInDim SMaskT ![0, 2] h k (ix3 b (0 : Fin 1) w)) = _
  rw [unitTime_apply h k b w]
  rfl

end Cert.MaskedProduct

end
-- ==== Proof.KernelArray.lean ====
/-
  The kernel's result array.

  Grid point `b` (one per sample, 64 in all) stages block `b` of `x` — all 2048 time steps and 512 bins of sample `b` —
  and row `b` of the mask, a [1, 1, 512] block; its body stores their product, the mask row repeated along time, and
  the point writes that block back as block `b` of the result.  So what point `b` writes back is block `b` of ONE
  whole-array function of `x` and the mask (`rowProduct`): entry `(b, t, w)` is `x[b, t, w]` times the mask's entry
  `(b, 0, w)`.  The 64 blocks tile the result (index `(b, t, w)` lies in block `b`), so the array ends holding that
  function.  The mask the region finds was written by the host operations before it: the keep bits converted to numbers
  and given a unit time axis, which makes the function the masked product of `x` and the keep bits.
-/
import proofs.«164661_j56959856279685_1_alg».proof.Proof.Gen.KernelIdeal.Value
import proofs.«164661_j56959856279685_1_alg».proof.Proof.MaskedProduct
import Idealize.ShloMosaic.Lib.Pipeline.Value
import Idealize.ShloMosaic.Lib.StableHlo.Run
import Idealize.ShloMosaic.Lib.ValueIdx

noncomputable section

namespace Cert.KernelIdeal.Masked

open Cert.KernelIdeal Cert.KernelIdeal.Gen Cert.KernelIdeal.Value Cert.MaskedProduct
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- The printed index maps, decided over the 64 grid points: every window's block index is `(b, 0, 0)` at point `b`. -/
theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The keep bits as the region finds them: the contents of the host's mask buffer before the conversion. -/
abbrev keepBits (c : Dev nD) : IVec S64x512 1 := V m c main_v24

/-- The mask window's array, as the region finds it, is the keep bits converted and given a unit time axis. -/
theorem mask_array (c : Dev nD) :
    (V m c main_v26 : S64x1x512.Idx → EReal) = broadcastInDim S64x1x512 ![0, 2] bcast_S64x512_S64x1x512_0_2 (uitofp (F := Ideal) .f32 (keepBits m c)) := by
  dsimp only [keepBits, V, hostOps0]
  after_results_simp

/-- What point `t` writes back is block `t` of `rowProduct` of `x` and the mask as the region finds them: the body's
    product at block index `j` reads `x` where the output block's index `j` lies, and the mask row at `j`'s bin. -/
theorem flushed_eq (c : Dev nD) (t : Fin cfg0.N) :
    (dats m 0 c).flushed 2 t = ((cfg0.win 2).blk t).view.read (Elt Ideal) (rowProduct (V m c main_arg0) (V m c main_v26)) := by
  rw [flushed2]
  obtain ⟨e00, e01, e02, e10, e11, e12, e20, e21, e22⟩ := block_indices t
  funext j
  show out0_2 (iblk m c 0 t) (iblk m c 1 t) j = _
  unfold out0_2
  rw [canon2_eq]
  simp only [View.ld_unit_zero (S := S1x2048x512) zero_offsets, View.ld_unit_zero (S := S1x1x512) zero_offsets]
  have hj0 : (j 0).val < 1 := (j 0).isLt
  have hj1 : (j 1).val < 2048 := (j 1).isLt
  have hj2 : (j 2).val < 512 := (j 2).isLt
  have h0 : ((cfg0.win 0).blk t).view.emb (ix2_0 j) = ((cfg0.win 2).blk t).view.emb j := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 2048 + 1 * (j 1).val = win0_2.index t (1 : Fin 3) * 2048 + 1 * (j 1).val; omega
    | ⟨2, _⟩ => show win0_0.index t (2 : Fin 3) * 512 + 1 * (j 2).val = win0_2.index t (2 : Fin 3) * 512 + 1 * (j 2).val; omega
  have h1 : ((cfg0.win 1).blk t).view.emb (ix2_1 j)
      = ix3 (n0 := 64) (n1 := 1) (n2 := 512) ((((cfg0.win 2).blk t).view.emb j) 0) 0 ((((cfg0.win 2).blk t).view.emb j) 2) := by
    funext a; apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 1 + 1 * 0 = 0; omega
    | ⟨2, _⟩ => show win0_1.index t (2 : Fin 3) * 512 + 1 * (j 2).val = win0_2.index t (2 : Fin 3) * 512 + 1 * (j 2).val; omega
  show FloatOps.mulf (F := Ideal) (φ := .f32) (V m c main_arg0 (((cfg0.win 0).blk t).view.emb (ix2_0 j))) (V m c main_v26 (((cfg0.win 1).blk t).view.emb (ix2_1 j)))
    = rowProduct (V m c main_arg0) (V m c main_v26) (((cfg0.win 2).blk t).view.emb j)
  rw [h0, h1]
  rfl

/-- An index of the result is in point `t`'s block iff each coordinate is in the block's range on its axis. -/
theorem mem_block (t : Fin cfg0.N) (i : S64x2048x512.Idx) :
    i ∈ ((cfg0.win 2).blk t).view.set ↔ ∀ a : Fin 3, win0_2.index t a * S1x2048x512.size a ≤ (i a).val ∧ (i a).val < win0_2.index t a * S1x2048x512.size a + S1x2048x512.size a := by
  show i ∈ ((View.whole main_v27).slice (win0_2.rect t)).set ↔ _
  rw [View.set_slice_whole, Rect.mem_set_unit]
  exact Iff.rfl

/-- The result array after the run: the blocks tile it, index `(b, t, w)` lying in the block of point `b`. -/
theorem final_rows (c : Dev nD) : (dats m 0 c).arrAt 2 cfg0.N = rowProduct (V m c main_arg0) (V m c main_v26) :=
  (dats m 0 c).arrAt_eq_of_cover 2 _ (fun t _ => flushed_eq m c t) fun i => by
    have hi0 : (i 0).val < 64 := (i 0).isLt
    have hi1 : (i 1).val < 2048 := (i 1).isLt
    have hi2 : (i 2).val < 512 := (i 2).isLt
    have hlt : (i 0).val < cfg0.N := by rw [show cfg0.N = 64 from N_0]; exact hi0
    refine ⟨⟨(i 0).val, hlt⟩, flush0_2 _, ?_⟩
    rw [mem_block]
    obtain ⟨-, -, -, -, -, -, e20, e21, e22⟩ := block_indices ⟨(i 0).val, hlt⟩
    have e20' : win0_2.index ⟨(i 0).val, hlt⟩ (0 : Fin 3) = (i 0).val := e20
    intro a
    match a with
    | ⟨0, _⟩ => show win0_2.index _ (0 : Fin 3) * 1 ≤ (i 0).val ∧ (i 0).val < win0_2.index _ (0 : Fin 3) * 1 + 1; rw [e20']; omega
    | ⟨1, _⟩ => show win0_2.index _ (1 : Fin 3) * 2048 ≤ (i 1).val ∧ (i 1).val < win0_2.index _ (1 : Fin 3) * 2048 + 2048; rw [e21]; omega
    | ⟨2, _⟩ => show win0_2.index _ (2 : Fin 3) * 512 ≤ (i 2).val ∧ (i 2).val < win0_2.index _ (2 : Fin 3) * 512 + 512; rw [e22]; omega

/-- The result array after the run is the masked product of `x` as launched and the keep bits. -/
theorem final (c : Dev nD) :
    (dats m 0 c).arrAt 2 cfg0.N = maskedProduct (m ((c : Thread nD τ).loc main_arg0)) (keepBits m c) := by
  rw [final_rows, V_main_arg0, mask_array]
  exact rowProduct_eq _ _ _

/-- The run, read: the result array at the masked product, the arguments unchanged. -/
theorem run : θ_run defs (onTc (τ := τ) (main (F := Ideal))) ⟨m, fun _ => 0, ρ⟩ fun r => ∀ c : Dev nD,
      r.2.mem ((c : Thread nD τ).loc main_v27) = maskedProduct (m ((c : Thread nD τ).loc main_arg0)) (keepBits m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Masked

end
-- ==== Proof.ReferenceArray.lean ====
/-
  The reference's result array.

  The reference computes the keep bits from the two uniform draws, one pair per sample and stripe:
  `distance = ⌊u_dist · 64⌋` and `bgn = ⌊u_bgn · (512 − distance)⌋`, both as 32-bit integers; bin `w` of sample `b` is
  inside stripe `s` when `bgn[b, s] ≤ w < bgn[b, s] + distance[b, s]`, and it is KEPT when it is inside neither stripe.
  `keepBits` is that computation, operation by operation as the program has it.  The kernel's host side performs the same
  operations before its region, so the bits themselves are never opened: the two programs are compared above them.

  The reference then gives the bits a unit time axis, converts them, broadcasts along time and multiplies: the masked
  product of `x` and the keep bits.
-/
import proofs.«164661_j56959856279685_1_alg».proof.Proof.Gen.ReferenceIdeal.Run
import proofs.«164661_j56959856279685_1_alg».proof.Proof.MaskedProduct

noncomputable section

namespace Cert.ReferenceIdeal.Masked

open Cert.ReferenceIdeal Cert.ReferenceIdeal.Gen Cert.MaskedProduct
open Idealize.ShloMosaic Idealize.ShloMosaic.TcCoe Idealize.SL.Sem

/-- The keep bits of the two uniform draws: bin `w` of sample `b` is kept when it lies in neither stripe
    `[bgn, bgn + distance)`, with `distance = ⌊u_dist · 64⌋` and `bgn = ⌊u_bgn · (512 − distance)⌋`. -/
def keepBits (u_dist u_bgn : FVec Ideal S64x2 .f32) : IVec S64x512 1 :=
  let distance : IVec S64x2 32 :=
    fptosi 32 (Host.floor (mulf u_dist (broadcastInDim S64x2 ![] bcast_S_S64x2 (constant (F := Ideal) S_ .f32 0x42800000#32))))
  let bgn : IVec S64x2 32 :=
    fptosi 32 (Host.floor (mulf u_bgn (sitofp (F := Ideal) .f32 (subi (broadcastInDim S64x2 ![] bcast_S_S64x2 (constantI S_ 32 512#32)) distance))))
  let bins : IVec S64x2x512 32 :=
    broadcastInDim S64x2x512 ![0, 1, 2] bcast_S1x1x512_S64x2x512_0_1_2 (broadcastInDim S1x1x512 ![2] bcast_S512_S1x1x512_2 (iotaInDim S512 32 0))
  let alongBins (v : IVec S64x2 32) : IVec S64x2x512 32 :=
    broadcastInDim S64x2x512 ![0, 1, 2] bcast_S64x2x1_S64x2x512_0_1_2 (broadcastInDim S64x2x1 ![0, 1] bcast_S64x2_S64x2x1_0_1 v)
  noti (Host.reduce IntOp.ori (andi (cmpi .sge bins (alongBins bgn)) (cmpi .slt bins (alongBins (addi bgn distance))))
    (constantI S_ 1 0#1) reducesTo_S64x2x512_S64x512_d1 h_S_)

/-- The run, read: the result array at the masked product of `x` and the keep bits, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28)
        = maskedProduct (m ((c.tc : Thread nD τ).loc main_arg0)) (keepBits (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans (wholeProduct_eq bcast_S64x512_S64x1x512_0_2 bcast_S64x1x512_S64x2048x512_0_1_2 _ _), (h c).2⟩)
    (Cert.ReferenceIdeal.Value.run (F := Ideal) m ρ)

end Cert.ReferenceIdeal.Masked

end
-- ==== Proof.lean ====
/-
  DropStripes: per-sample stripe masking along the frequency axis, over x : f32[64, 2048, 512].

  Both programs compute, from the uniform draws `u_dist` and `u_bgn` (two stripes per sample), a [64, 512] mask of keep
  bits — bin `w` of sample `b` is kept when it lies in neither stripe `[bgn, bgn + distance)` — and return
  `x[b, t, w] · keep[b, w]`, the bit read as the number 0 or 1 (Proof/MaskedProduct.lean: `maskedProduct`).

    * The kernel computes the bits on the host, converts them, gives them a unit time axis, and one grid point per sample
      multiplies that sample's [2048, 512] slab by its mask row repeated along time (Proof/KernelArray.lean).
    * The reference computes the same bits by the same host operations, gives them the unit time axis, converts,
      broadcasts along time and multiplies whole arrays (Proof/ReferenceArray.lean).

  The bits are the same term of the draws on both sides (`same_bits`: operation for operation), and above them each
  program is the masked product, so the results agree at every index with no algebra on the extended reals; in
  particular finiteness of the inputs is never used.  The ideal pass rewrote nothing, so the kernel's idealization is
  its own text read over the extended reals and `preserves` has no conjunct.  The three frames are the generated ones:
  the two kernels' frame runs, and the reference's run with its result dropped.
-/
import proofs.«164661_j56959856279685_1_alg».proof.Defs
import proofs.«164661_j56959856279685_1_alg».proof.Proof.Gen.Kernel
import proofs.«164661_j56959856279685_1_alg».proof.Proof.Gen.Kernel.Frame
import proofs.«164661_j56959856279685_1_alg».proof.Proof.Gen.KernelIdeal
import proofs.«164661_j56959856279685_1_alg».proof.Proof.Gen.KernelIdeal.Frame
import proofs.«164661_j56959856279685_1_alg».proof.Proof.Gen.ReferenceIdeal
import proofs.«164661_j56959856279685_1_alg».proof.Proof.Gen.Pre_finite_inputs
import proofs.«164661_j56959856279685_1_alg».proof.Proof.Gen.KernelIdeal.Value
import proofs.«164661_j56959856279685_1_alg».proof.Proof.Gen.ReferenceIdeal.Run
import proofs.«164661_j56959856279685_1_alg».proof.Proof.MaskedProduct
import proofs.«164661_j56959856279685_1_alg».proof.Proof.KernelArray
import proofs.«164661_j56959856279685_1_alg».proof.Proof.ReferenceArray
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem Idealize.ShloMosaic.StableHlo Cert.MaskedProduct

/-- The kernel's host operations before its region compute the keep bits exactly as the reference does: the same
    operations, in the same order, on the same two draws. -/
theorem same_bits (m : (ℓ : Loc Cert.KernelIdeal.nD Cert.KernelIdeal.τ Cert.KernelIdeal.sig) → Buf (Elt Ideal) ℓ) (c : Dev Cert.KernelIdeal.nD) :
    Cert.KernelIdeal.Masked.keepBits m c
      = Cert.ReferenceIdeal.Masked.keepBits (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  dsimp only [Cert.KernelIdeal.Masked.keepBits, Cert.KernelIdeal.Gen.V, Cert.KernelIdeal.Gen.hostOps0]
  after_results_simp
  rfl

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories agreeing on the arguments both programs end with the masked product of `x` and the keep bits of the
    two draws: the kernel's result array by its run read block by block, the reference's by its run read whole, the
    bits one term. -/
theorem algebraic : Cert.algebraic_KernelIdeal_ReferenceIdeal := by
  intro m ρ m' ρ' _ hagree
  refine ⟨_, Cert.KernelIdeal.Masked.run m ρ, ?_⟩
  refine (θ_run Cert.ReferenceIdeal.defs _ _).mono (fun _ h c => ⟨(h c).1.trans ?_, (h c).2⟩)
    (Cert.ReferenceIdeal.Masked.run m' ρ')
  rw [(hagree c).1, (hagree c).2.1, (hagree c).2.2, same_bits]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
